-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S64x8x3 : Shape := ⟨3, ![64, 8, 3]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S64x8x3 : S_.BroadcastsInDim S64x8x3 (![] : Fin 0 → Fin S64x8x3.rank)
  reducesTo_S64x8x3_S_d0_1_2 : S64x8x3.ReducesTo [0, 1, 2] S_

variable [Facts]

def fn {F : FTy → Type} [FloatOps F] (main_arg0 : FVec F S8192x128 .f32) (main_arg1 : FVec F S8192x128 .f32) (main_arg2 : FVec F S64x8x3 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S64x8x3 .f32 := Host.absf main_arg2
  let main_cst_2 : FVec F S_ .f32 := constant S_ .f32 0x7F800000#32
  let main_v10 : FVec F S64x8x3 .f32 := broadcastInDim S64x8x3 ![] bcast_S_S64x8x3 main_cst_2
  let main_v11 : IVec S64x8x3 1 := cmpf .olt main_v9 main_v10
  let main_c_3 : IVec S_ 1 := constantI S_ 1 1#1
  let main_v12 : IVec S_ 1 := (fun x v => Host.reduce IntOp.andi x v reducesTo_S64x8x3_S_d0_1_2 h_S_) main_v11 main_c_3
  let main_v13 : IVec S_ 1 := andi main_v8 main_v12
  main_v13
-- ==== Kernel.lean ====
abbrev S8192x128 : Shape := ⟨2, ![8192, 128]⟩
abbrev S64x8x3 : Shape := ⟨3, ![64, 8, 3]⟩
abbrev S8 : Shape := ⟨1, ![8]⟩
abbrev S_ : Shape := ⟨0, ![]⟩
abbrev S8192x256 : Shape := ⟨2, ![8192, 256]⟩
abbrev S1 : Shape := ⟨1, ![1]⟩
abbrev S8192 : Shape := ⟨1, ![8192]⟩
abbrev S8x1 : Shape := ⟨2, ![8, 1]⟩
abbrev S8192x8 : Shape := ⟨2, ![8192, 8]⟩
abbrev S64x8x1 : Shape := ⟨3, ![64, 8, 1]⟩
abbrev S64x8 : Shape := ⟨2, ![64, 8]⟩
abbrev S8192x64 : Shape := ⟨2, ![8192, 64]⟩
abbrev S8192x1 : Shape := ⟨2, ![8192, 1]⟩
abbrev S64x8192 : Shape := ⟨2, ![64, 8192]⟩
abbrev S8192x8192 : Shape := ⟨2, ![8192, 8192]⟩
abbrev S1024x64 : Shape := ⟨2, ![1024, 64]⟩
abbrev S64x2048 : Shape := ⟨2, ![64, 2048]⟩
abbrev S1024x2048 : Shape := ⟨2, ![1024, 2048]⟩

abbrev nBuf : Space → Nat
  | .hbm => 63
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S64x8x3, .f32⟩
  | .hbm, ⟨3, _⟩ => ⟨S8, .i32⟩
  | .hbm, ⟨4, _⟩ => ⟨S8, .i1⟩
  | .hbm, ⟨5, _⟩ => ⟨S8, .i32⟩
  | .hbm, ⟨6, _⟩ => ⟨S8, .i1⟩
  | .hbm, ⟨7, _⟩ => ⟨S_, .f32⟩
  | .hbm, ⟨8, _⟩ => ⟨S8192x256, .f32⟩
  | .hbm, ⟨9, _⟩ => ⟨S_, .i32⟩
  | .hbm, ⟨10, _⟩ => ⟨S1, .i32⟩
  | .hbm, ⟨11, _⟩ => ⟨S_, .f32⟩
  | .hbm, ⟨12, _⟩ => ⟨S8192, .f32⟩
  | .hbm, ⟨13, _⟩ => ⟨S8192x256, .f32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S8, .i32⟩
  | .hbm, ⟨18, _⟩ => ⟨S8x1, .i32⟩
  | .hbm, ⟨19, _⟩ => ⟨S8192x8, .f32⟩
  | .hbm, ⟨20, _⟩ => ⟨S64x8x1, .f32⟩
  | .hbm, ⟨21, _⟩ => ⟨S64x8, .f32⟩
  | .hbm, ⟨22, _⟩ => ⟨S8192x64, .f32⟩
  | .hbm, ⟨23, _⟩ => ⟨S8192x64, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x64, .f32⟩
  | .hbm, ⟨32, _⟩ => ⟨S8192x64, .f32⟩
  | .hbm, ⟨33, _⟩ => ⟨S_, .f32⟩
  | .hbm, ⟨34, _⟩ => ⟨S8192x256, .f32⟩
  | .hbm, ⟨35, _⟩ => ⟨S_, .i32⟩
  | .hbm, ⟨36, _⟩ => ⟨S1, .i32⟩
  | .hbm, ⟨37, _⟩ => ⟨S_, .f32⟩
  | .hbm, ⟨38, _⟩ => ⟨S8192, .f32⟩
  | .hbm, ⟨39, _⟩ => ⟨S8192x256, .f32⟩
  | .hbm, ⟨40, _⟩ => ⟨S_, .i32⟩
  | .hbm, ⟨41, _⟩ => ⟨S8, .i32⟩
  | .hbm, ⟨42, _⟩ => ⟨S8, .i32⟩
  | .hbm, ⟨43, _⟩ => ⟨S8, .i32⟩
  | .hbm, ⟨44, _⟩ => ⟨S8x1, .i32⟩
  | .hbm, ⟨45, _⟩ => ⟨S8192x8, .f32⟩
  | .hbm, ⟨46, _⟩ => ⟨S64x8x1, .f32⟩
  | .hbm, ⟨47, _⟩ => ⟨S64x8, .f32⟩
  | .hbm, ⟨48, _⟩ => ⟨S8192x64, .f32⟩
  | .hbm, ⟨49, _⟩ => ⟨S8192x64, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x64, .f32⟩
  | .hbm, ⟨58, _⟩ => ⟨S8192x64, .f32⟩
  | .hbm, ⟨59, _⟩ => ⟨S8192x64, .bf16⟩
  | .hbm, ⟨60, _⟩ => ⟨S64x8192, .f32⟩
  | .hbm, ⟨61, _⟩ => ⟨S64x8192, .bf16⟩
  | .hbm, ⟨62, _⟩ => ⟨S8192x8192, .f32⟩
  | .local _ .vmem, ⟨0, _⟩ => ⟨S1024x64, .bf16⟩
  | .local _ .vmem, ⟨1, _⟩ => ⟨S1024x64, .bf16⟩
  | .local _ .vmem, ⟨2, _⟩ => ⟨S64x2048, .bf16⟩
  | .local _ .vmem, ⟨3, _⟩ => ⟨S64x2048, .bf16⟩
  | .local _ .vmem, ⟨4, _⟩ => ⟨S1024x2048, .f32⟩
  | .local _ .vmem, ⟨5, _⟩ => ⟨S1024x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_cst : Ref sig .tc := ⟨.hbm, 7, rfl⟩
abbrev main_v0 : Ref sig .tc := ⟨.hbm, 8, rfl⟩
abbrev main_c_3 : Ref sig .tc := ⟨.hbm, 9, rfl⟩
abbrev main_v1 : Ref sig .tc := ⟨.hbm, 10, rfl⟩
abbrev main_cst_4 : Ref sig .tc := ⟨.hbm, 11, rfl⟩
abbrev main_v2 : Ref sig .tc := ⟨.hbm, 12, rfl⟩
abbrev main_v3 : Ref sig .tc := ⟨.hbm, 13, rfl⟩
abbrev main_c_5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_call0_v2 : Ref sig .tc := ⟨.hbm, 26, rfl⟩
abbrev main_v12 : Ref sig .tc := ⟨.hbm, 27, rfl⟩
abbrev main_cst_6 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_7 : Ref sig .tc := ⟨.hbm, 33, rfl⟩
abbrev main_v17 : Ref sig .tc := ⟨.hbm, 34, rfl⟩
abbrev main_c_8 : Ref sig .tc := ⟨.hbm, 35, rfl⟩
abbrev main_v18 : Ref sig .tc := ⟨.hbm, 36, rfl⟩
abbrev main_cst_9 : Ref sig .tc := ⟨.hbm, 37, rfl⟩
abbrev main_v19 : Ref sig .tc := ⟨.hbm, 38, rfl⟩
abbrev main_v20 : Ref sig .tc := ⟨.hbm, 39, rfl⟩
abbrev main_c_10 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call1_v0 : Ref sig .tc := ⟨.hbm, 49, rfl⟩
abbrev main_call1_cst : Ref sig .tc := ⟨.hbm, 50, rfl⟩
abbrev main_call1_v1 : Ref sig .tc := ⟨.hbm, 51, rfl⟩
abbrev main_call1_v2 : Ref sig .tc := ⟨.hbm, 52, rfl⟩
abbrev main_v29 : Ref sig .tc := ⟨.hbm, 53, rfl⟩
abbrev main_cst_11 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S8192x256 : S_.BroadcastsInDim S8192x256 (![] : Fin 0 → Fin S8192x256.rank)
  bcast_S_S1 : S_.BroadcastsInDim S1 (![] : Fin 0 → Fin S1.rank)
  bcast_S_S8192 : S_.BroadcastsInDim S8192 (![] : Fin 0 → Fin S8192.rank)
  bcast_S_S8 : S_.BroadcastsInDim S8 (![] : Fin 0 → Fin S8.rank)
  bcast_S8_S8x1_0 : S8.BroadcastsInDim S8x1 (![0] : Fin 1 → Fin S8x1.rank)
  slices_S64x8x3_S64x8x1_0_0_0 : S64x8x3.Slices ![0, 0, 0] S64x8x1
  shapeCasts_S64x8x1_S64x8 : S64x8x1.ShapeCasts S64x8
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  bitsLt_bf16_f32 : FTy.bits .bf16 < FTy.bits .f32
  transposes_S8192x64_S64x8192_1_0 : S8192x64.Transposes [1, 0] S64x8192
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1024x2048_S1024x2048_0_0 : ∀ a, (![0, 0] : Fin 2 → Nat) a + S1024x2048.size a ≤ S1024x2048.size a
  h_S1024x2048 : 0 < S1024x2048.numel
  scatter_S8192x256_S1_S8192_0_1_1_0_wf : ScatterDims.WF S8192x256 S1 S8192 [0] [1] [1] 0
  gather_S8192x256_S8x1_S8192x8_0_1_n_n_1_1_81921_wf : GatherDims.WF S8192x256 S8x1 S8192x8 [0] [1] [] [1] [] 1 ![8192, 1]
  dot_S8192x8_S64x8_S8192x64_1_1_0_0_n_n_wf : DotDims.WF S8192x8 S64x8 S8192x64 [1] [1] [0] [0] [] []
  dot_S1024x64_S64x2048_S1024x2048_1_0_0_1_n_n_wf : DotDims.WF S1024x64 S64x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .bf16 = 32 ∨ (Rect.block (s := S8192x64) S1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x8192.size a
  hwx0_1 : ∀ i : grid0.Coords, EltTy.bits .bf16 = 32 ∨ (Rect.block (s := S64x8192) S64x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .f32 = 32 ∨ (Rect.block (s := S8192x8192) S1024x2048.size (cc0_transform_2 i) (hinb0_2 i)).WholeWords (EltTy.packing .f32)

variable [Facts₀]

def scatter_S8192x256_S1_S8192_0_1_1_0 : ScatterDims S8192x256 S1 S8192 where
  updateWindowDims := [0]
  insertedWindowDims := [1]
  scatterDimsToOperandDims := [1]
  indexVectorDim := 0
  wf := scatter_S8192x256_S1_S8192_0_1_1_0_wf
def gather_S8192x256_S8x1_S8192x8_0_1_n_n_1_1_81921 : GatherDims S8192x256 S8x1 S8192x8 where
  offsetDims := [0]
  collapsedSliceDims := [1]
  operandBatchingDims := []
  startIndicesBatchingDims := []
  startIndexMap := [1]
  indexVectorDim := 1
  sliceSizes := ![8192, 1]
  wf := gather_S8192x256_S8x1_S8192x8_0_1_n_n_1_1_81921_wf
def dot_S8192x8_S64x8_S8192x64_1_1_0_0_n_n : DotDims S8192x8 S64x8 S8192x64 where
  lhsContracting := [1]
  rhsContracting := [1]
  lhsNonContracting := [0]
  rhsNonContracting := [0]
  lhsBatch := []
  rhsBatch := []
  wf := dot_S8192x8_S64x8_S8192x64_1_1_0_0_n_n_wf
def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf

abbrev win0_0 : Pipeline.Window sig grid0 :=
  Pipeline.Window.ofSpec (Memref.whole main_v34) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S64x8x3 : Shape := ⟨3, ![64, 8, 3]⟩
abbrev S8 : Shape := ⟨1, ![8]⟩
abbrev S_ : Shape := ⟨0, ![]⟩
abbrev S8192x256 : Shape := ⟨2, ![8192, 256]⟩
abbrev S1 : Shape := ⟨1, ![1]⟩
abbrev S8192 : Shape := ⟨1, ![8192]⟩
abbrev S8x1 : Shape := ⟨2, ![8, 1]⟩
abbrev S8192x8 : Shape := ⟨2, ![8192, 8]⟩
abbrev S64x8x1 : Shape := ⟨3, ![64, 8, 1]⟩
abbrev S64x8 : Shape := ⟨2, ![64, 8]⟩
abbrev S8192x64 : Shape := ⟨2, ![8192, 64]⟩
abbrev S8192x1 : Shape := ⟨2, ![8192, 1]⟩
abbrev S64x8192 : Shape := ⟨2, ![64, 8192]⟩
abbrev S8192x8192 : Shape := ⟨2, ![8192, 8192]⟩

abbrev nBuf : Space → Nat
  | .hbm => 61
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S64x8x3, .f32⟩
  | .hbm, ⟨3, _⟩ => ⟨S8, .i32⟩
  | .hbm, ⟨4, _⟩ => ⟨S8, .i1⟩
  | .hbm, ⟨5, _⟩ => ⟨S8, .i32⟩
  | .hbm, ⟨6, _⟩ => ⟨S8, .i1⟩
  | .hbm, ⟨7, _⟩ => ⟨S_, .f32⟩
  | .hbm, ⟨8, _⟩ => ⟨S8192x256, .f32⟩
  | .hbm, ⟨9, _⟩ => ⟨S_, .i32⟩
  | .hbm, ⟨10, _⟩ => ⟨S1, .i32⟩
  | .hbm, ⟨11, _⟩ => ⟨S_, .f32⟩
  | .hbm, ⟨12, _⟩ => ⟨S8192, .f32⟩
  | .hbm, ⟨13, _⟩ => ⟨S8192x256, .f32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S8, .i32⟩
  | .hbm, ⟨18, _⟩ => ⟨S8x1, .i32⟩
  | .hbm, ⟨19, _⟩ => ⟨S8192x8, .f32⟩
  | .hbm, ⟨20, _⟩ => ⟨S64x8x1, .f32⟩
  | .hbm, ⟨21, _⟩ => ⟨S64x8, .f32⟩
  | .hbm, ⟨22, _⟩ => ⟨S8192x64, .f32⟩
  | .hbm, ⟨23, _⟩ => ⟨S_, .f32⟩
  | .hbm, ⟨24, _⟩ => ⟨S8192x256, .f32⟩
  | .hbm, ⟨25, _⟩ => ⟨S_, .i32⟩
  | .hbm, ⟨26, _⟩ => ⟨S1, .i32⟩
  | .hbm, ⟨27, _⟩ => ⟨S_, .f32⟩
  | .hbm, ⟨28, _⟩ => ⟨S8192, .f32⟩
  | .hbm, ⟨29, _⟩ => ⟨S8192x256, .f32⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S8, .i32⟩
  | .hbm, ⟨34, _⟩ => ⟨S8x1, .i32⟩
  | .hbm, ⟨35, _⟩ => ⟨S8192x8, .f32⟩
  | .hbm, ⟨36, _⟩ => ⟨S64x8x1, .f32⟩
  | .hbm, ⟨37, _⟩ => ⟨S64x8, .f32⟩
  | .hbm, ⟨38, _⟩ => ⟨S8192x64, .f32⟩
  | .hbm, ⟨39, _⟩ => ⟨S8192x64, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x64, .f32⟩
  | .hbm, ⟨48, _⟩ => ⟨S8192x64, .f32⟩
  | .hbm, ⟨49, _⟩ => ⟨S8192x64, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x64, .f32⟩
  | .hbm, ⟨58, _⟩ => ⟨S8192x64, .f32⟩
  | .hbm, ⟨59, _⟩ => ⟨S64x8192, .f32⟩
  | .hbm, ⟨60, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_cst : Ref sig .tc := ⟨.hbm, 7, rfl⟩
abbrev main_v0 : Ref sig .tc := ⟨.hbm, 8, rfl⟩
abbrev main_c_3 : Ref sig .tc := ⟨.hbm, 9, rfl⟩
abbrev main_v1 : Ref sig .tc := ⟨.hbm, 10, rfl⟩
abbrev main_cst_4 : Ref sig .tc := ⟨.hbm, 11, rfl⟩
abbrev main_v2 : Ref sig .tc := ⟨.hbm, 12, rfl⟩
abbrev main_v3 : Ref sig .tc := ⟨.hbm, 13, rfl⟩
abbrev main_c_5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_cst_8 : Ref sig .tc := ⟨.hbm, 27, rfl⟩
abbrev main_v14 : Ref sig .tc := ⟨.hbm, 28, rfl⟩
abbrev main_v15 : Ref sig .tc := ⟨.hbm, 29, rfl⟩
abbrev main_c_9 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_v0 : Ref sig .tc := ⟨.hbm, 39, rfl⟩
abbrev main_call0_cst : Ref sig .tc := ⟨.hbm, 40, rfl⟩
abbrev main_call0_v1 : Ref sig .tc := ⟨.hbm, 41, rfl⟩
abbrev main_call0_v2 : Ref sig .tc := ⟨.hbm, 42, rfl⟩
abbrev main_v24 : Ref sig .tc := ⟨.hbm, 43, rfl⟩
abbrev main_cst_10 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call1_v0 : Ref sig .tc := ⟨.hbm, 49, rfl⟩
abbrev main_call1_cst : Ref sig .tc := ⟨.hbm, 50, rfl⟩
abbrev main_call1_v1 : Ref sig .tc := ⟨.hbm, 51, rfl⟩
abbrev main_call1_v2 : Ref sig .tc := ⟨.hbm, 52, rfl⟩
abbrev main_v29 : Ref sig .tc := ⟨.hbm, 53, rfl⟩
abbrev main_cst_11 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  bcast_S_S1 : S_.BroadcastsInDim S1 (![] : Fin 0 → Fin S1.rank)
  bcast_S_S8192 : S_.BroadcastsInDim S8192 (![] : Fin 0 → Fin S8192.rank)
  bcast_S_S8 : S_.BroadcastsInDim S8 (![] : Fin 0 → Fin S8.rank)
  bcast_S8_S8x1_0 : S8.BroadcastsInDim S8x1 (![0] : Fin 1 → Fin S8x1.rank)
  slices_S64x8x3_S64x8x1_0_0_0 : S64x8x3.Slices ![0, 0, 0] S64x8x1
  shapeCasts_S64x8x1_S64x8 : S64x8x1.ShapeCasts S64x8
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S8192x64_S64x8192_1_0 : S8192x64.Transposes [1, 0] S64x8192
  scatter_S8192x256_S1_S8192_0_1_1_0_wf : ScatterDims.WF S8192x256 S1 S8192 [0] [1] [1] 0
  gather_S8192x256_S8x1_S8192x8_0_1_n_n_1_1_81921_wf : GatherDims.WF S8192x256 S8x1 S8192x8 [0] [1] [] [1] [] 1 ![8192, 1]
  dot_S8192x8_S64x8_S8192x64_1_1_0_0_n_n_wf : DotDims.WF S8192x8 S64x8 S8192x64 [1] [1] [0] [0] [] []
  dot_S8192x64_S64x8192_S8192x8192_1_0_0_1_n_n_wf : DotDims.WF S8192x64 S64x8192 S8192x8192 [1] [0] [0] [1] [] []

variable [Facts₀]

def scatter_S8192x256_S1_S8192_0_1_1_0 : ScatterDims S8192x256 S1 S8192 where
  updateWindowDims := [0]
  insertedWindowDims := [1]
  scatterDimsToOperandDims := [1]
  indexVectorDim := 0
  wf := scatter_S8192x256_S1_S8192_0_1_1_0_wf
def gather_S8192x256_S8x1_S8192x8_0_1_n_n_1_1_81921 : GatherDims S8192x256 S8x1 S8192x8 where
  offsetDims := [0]
  collapsedSliceDims := [1]
  operandBatchingDims := []
  startIndicesBatchingDims := []
  startIndexMap := [1]
  indexVectorDim := 1
  sliceSizes := ![8192, 1]
  wf := gather_S8192x256_S8x1_S8192x8_0_1_n_n_1_1_81921_wf
def dot_S8192x8_S64x8_S8192x64_1_1_0_0_n_n : DotDims S8192x8 S64x8 S8192x64 where
  lhsContracting := [1]
  rhsContracting := [1]
  lhsNonContracting := [0]
  rhsNonContracting := [0]
  lhsBatch := []
  rhsBatch := []
  wf := dot_S8192x8_S64x8_S8192x64_1_1_0_0_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.Gram.lean ====
/-
  The cosine-similarity matrix as one function of the matrix of unit rows, and the two products that compute it.

  For a matrix `q` of 8192 rows and 64 columns the result is the Gram matrix of its rows,
  `gram q (a, b) = ∑ c < 64, q (a, c) · q (b, c)`, a sum of 64 products on the extended reals. Two spellings end there:
  the host's `dot_general` of `q` with its transpose (rows × contraction times contraction × columns, the right operand
  read transposed), and a block of rows times a block of columns accumulated into a zero block (`tpu.matmul`), which
  at the ideal values is the host's product of the two blocks. No law of the extended reals beyond `0 + x = x` is used:
  both sides are the same finite sum, term by term.
-/
import Idealize.ShloMosaic.Lib.StackMember
import Idealize.ShloMosaic.Lib.ValueLayout

noncomputable section

open scoped BigOperators

namespace Cert.CosineGram

open Idealize.ShloMosaic Idealize.ShloMosaic.ValueIdx Idealize.ShloMosaic.StackMember

/-- The Gram matrix of the rows of `q`: entry `(a, b)` is the inner product of row `a` with row `b`. -/
def gram (q : FVec Ideal ⟨2, ![8192, 64]⟩ .f32) : FVec Ideal ⟨2, ![8192, 8192]⟩ .f32 :=
  fun i => ∑ c : Fin 64, q (ix2 (i 0) c) * q (ix2 (i 1) c)

/-- At the index with coordinates `a` and `b` it is the sum over the 64 columns. -/
theorem gram_apply (q : FVec Ideal ⟨2, ![8192, 64]⟩ .f32) (a b : Fin 8192) :
    gram q (ix2 a b) = ∑ c : Fin 64, q (ix2 a c) * q (ix2 b c) := rfl

/-- The host's product of `q` with its own transpose is the Gram matrix of `q`'s rows: entry `(a, b)` sums
    `q (a, c)` times the transpose at `(c, b)`, which is `q (b, c)`. -/
theorem hostDot_transpose_eq_gram (q : FVec Ideal ⟨2, ![8192, 64]⟩ .f32)
    (h : (⟨2, ![8192, 64]⟩ : Shape).Transposes [1, 0] ⟨2, ![64, 8192]⟩) :
    Host.dotGeneral (DotDims.plain 8192 64 8192) none q (transpose ⟨2, ![64, 8192]⟩ [1, 0] q h) = gram q := by
  funext i
  obtain ⟨a, b, rfl⟩ : ∃ (a : Fin 8192) (b : Fin 8192), i = ix2 a b := ⟨i 0, i 1, eq_ix2 i⟩
  rw [dotGeneral_plain_apply, gram_apply]
  exact Finset.sum_congr rfl fun c _ => by rw [transpose_ix2_apply]

/-- A block of 1024 rows times a block of 2048 columns, accumulated into the zero block: entry `(p, r)` is the sum over
    the 64 contracted positions of the products of the two blocks' entries. -/
theorem blockProduct_apply (A : FVec Ideal ⟨2, ![1024, 64]⟩ .bf16) (B : FVec Ideal ⟨2, ![64, 2048]⟩ .bf16)
    (p : Fin 1024) (r : Fin 2048) :
    matmul (DotDims.plain 1024 64 2048) none A B (constant ⟨2, ![1024, 2048]⟩ .f32 0x00000000#32) (ix2 p r)
      = ∑ c : Fin 64, A (ix2 p c) * B (ix2 c r) := by
  rw [matmul_zero_eq_dotGeneral]
  exact dotGeneral_plain_apply none A B p r

end Cert.CosineGram

end
-- ==== Proof.UnitRows.lean ====
/-
  The matrix of unit rows both programs build on the host before their final product, as one function of the
  projection basis.

  Every sample is encoded as the same basis state: a row of 256 probabilities that is 1 at position 0 and 0 elsewhere
  (a zero matrix with column 0 overwritten by ones). The feature of qubit `j` is the probability at position `2^j`
  (a gather of the columns 1, 2, 4, …, 128), and projection `p` of a sample is the inner product of its eight
  features with `basis[p, ·, 0]` (a slice of the basis's last axis, reshaped, contracted over the qubits):
  `projected`. A row is then divided by its Euclidean norm plus a small constant (`normalized`: the row's sum of
  squares, its square root, the constant added, the quotient). Neither input sample array enters: the result depends
  on the basis alone. The operations are kept exactly as the two programs spell them, at any float instance, so that
  each program's host prefix is this function by unfolding; nothing here evaluates them.
-/
import Idealize.ShloMosaic.PureOps

noncomputable section

namespace Cert.UnitRows

open Idealize.ShloMosaic

variable {F : FTy → Type} [FloatOps F]

/-- The positions gathered from a sample's probabilities: the powers of two below 256, one per qubit. -/
abbrev bitPositions : Fin 8 → BitVec 32 := fun
  | 0 => 1#32 | 1 => 2#32 | 2 => 4#32 | 3 => 8#32 | 4 => 16#32 | 5 => 32#32 | 6 => 64#32 | 7 => 128#32
  | _ => 0#32

/-- Writing a column of ones into column 0 of the 8192 × 256 zero matrix. -/
def onesIntoColumn : ScatterDims ⟨2, ![8192, 256]⟩ ⟨1, ![1]⟩ ⟨1, ![8192]⟩ where
  updateWindowDims := [0]
  insertedWindowDims := [1]
  scatterDimsToOperandDims := [1]
  indexVectorDim := 0
  wf := by decide

/-- Taking eight whole columns of the 8192 × 256 matrix, at the positions an 8 × 1 index array names. -/
def columnsAt : GatherDims ⟨2, ![8192, 256]⟩ ⟨2, ![8, 1]⟩ ⟨2, ![8192, 8]⟩ where
  offsetDims := [0]
  collapsedSliceDims := [1]
  operandBatchingDims := []
  startIndicesBatchingDims := []
  startIndexMap := [1]
  indexVectorDim := 1
  sliceSizes := ![8192, 1]
  wf := by decide

/-- Features (8192 × 8) against the basis slice (64 × 8), both contracted over the qubit axis. -/
def overQubits : DotDims ⟨2, ![8192, 8]⟩ ⟨2, ![64, 8]⟩ ⟨2, ![8192, 64]⟩ where
  lhsContracting := [1]
  rhsContracting := [1]
  lhsNonContracting := [0]
  rhsNonContracting := [0]
  lhsBatch := []
  rhsBatch := []
  wf := by decide

/-- The 64 projections of each of the 8192 samples: the gathered features of the one-hot probabilities contracted
    with the basis's component 0. -/
def projected (basis : FVec F ⟨3, ![64, 8, 3]⟩ .f32) : FVec F ⟨2, ![8192, 64]⟩ .f32 :=
  Host.dotGeneral overQubits none
    (Host.gather columnsAt
      (Host.scatter onesIntoColumn (fun _ b => b)
        (broadcastInDim ⟨2, ![8192, 256]⟩ ![] (by decide) (constant (F := F) ⟨0, ![]⟩ .f32 0x00000000#32))
        (broadcastInDim ⟨1, ![1]⟩ ![] (by decide) (constantI ⟨0, ![]⟩ 32 0#32))
        (broadcastInDim ⟨1, ![8192]⟩ ![] (by decide) (constant (F := F) ⟨0, ![]⟩ .f32 0x3F800000#32)))
      (broadcastInDim ⟨2, ![8, 1]⟩ ![0] (by decide)
        (select (constantI ⟨1, ![8]⟩ 1 0#1)
          (addi (fun i => bitPositions ((⟨1, ![8]⟩ : Shape).rowMajor i))
            (broadcastInDim ⟨1, ![8]⟩ ![] (by decide) (constantI ⟨0, ![]⟩ 32 256#32)))
          (fun i => bitPositions ((⟨1, ![8]⟩ : Shape).rowMajor i)))))
    (shapeCast ⟨2, ![64, 8]⟩ (extractStridedSlice ⟨3, ![64, 8, 1]⟩ ![0, 0, 0] basis (by decide)) (by decide))

/-- Each row divided by its Euclidean norm plus the constant with pattern `0x322BCC77` (about 1e-8). -/
def normalized (p : FVec F ⟨2, ![8192, 64]⟩ .f32) : FVec F ⟨2, ![8192, 64]⟩ .f32 :=
  Host.divf p
    (broadcastInDim ⟨2, ![8192, 64]⟩ ![0, 1] (by decide)
      (addf
        (Host.sqrt
          (broadcastInDim ⟨2, ![8192, 1]⟩ ![0] (by decide)
            (Host.reduceAdd (mulf p p) (constant (F := F) ⟨0, ![]⟩ .f32 0x00000000#32)
              (by decide : (⟨2, ![8192, 64]⟩ : Shape).ReducesTo [1] ⟨1, ![8192]⟩) (by decide))))
        (broadcastInDim ⟨2, ![8192, 1]⟩ ![] (by decide) (constant (F := F) ⟨0, ![]⟩ .f32 0x322BCC77#32))))

/-- The unit rows: the projections, row-normalized. -/
def unitRows (basis : FVec F ⟨3, ![64, 8, 3]⟩ .f32) : FVec F ⟨2, ![8192, 64]⟩ .f32 :=
  normalized (projected basis)

end Cert.UnitRows

end
-- ==== Proof.RefRun.lean ====
/-
  The reference's run, read back as one term.

  The reference is a host program: forty-eight operations of its own and, twice, the five of the function that takes a
  matrix's row norms (the sum of squares along a row, its square root), called once on each matrix of projections —
  fifty-eight operations in a straight line once the two calls are laid out in place, each writing one buffer of its
  own. So every weakly fair execution terminates, and each buffer ends at the composition of the operations that
  lead to it, applied to the arguments as launched. For the result buffer that composition is the host's product of
  the unit rows (Proof/UnitRows.lean: the same function of the projection basis on both sides of the product) with
  their transpose; no operation writes an argument buffer, so the three arguments end as they were.
-/
import proofs.«129488_j81003083202739_1_alg».proof.Proof.Gen.ReferenceIdeal
import proofs.«129488_j81003083202739_1_alg».proof.Proof.UnitRows
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo
open Cert.UnitRows (unitRows)

variable {F : FTy → Type} [FloatOps F]

/-- The program's operations in order, the two calls of the row-norm function written out at their call sites over the
    buffers of each call. -/
abbrev ops : List (HloOp τ sig (Elt F)) :=
  [ nullary main_c (fun i => lit0 (S8.rowMajor i)),
    nullary main_c_0 (constantI S8 1 0#1),
    nullary main_c_1 (fun i => lit1 (S8.rowMajor i)),
    nullary main_c_2 (constantI S8 1 0#1),
    nullary main_cst (constant S_ .f32 0x00000000#32),
    unary main_cst main_v0 (broadcastInDim S8192x256 ![] bcast_S_S8192x256 : (⟨S_, .f32⟩ : BufTy).Contents (Elt F) → (⟨S8192x256, .f32⟩ : BufTy).Contents (Elt F)),
    nullary main_c_3 (constantI S_ 32 0#32),
    unary main_c_3 main_v1 (broadcastInDim S1 ![] bcast_S_S1 : (⟨S_, .i32⟩ : BufTy).Contents (Elt F) → (⟨S1, .i32⟩ : BufTy).Contents (Elt F)),
    nullary main_cst_4 (constant S_ .f32 0x3F800000#32),
    unary main_cst_4 main_v2 (broadcastInDim S8192 ![] bcast_S_S8192 : (⟨S_, .f32⟩ : BufTy).Contents (Elt F) → (⟨S8192, .f32⟩ : BufTy).Contents (Elt F)),
    ternary main_v0 main_v1 main_v2 main_v3 ((fun x i u => Host.scatter scatter_S8192x256_S1_S8192_0_1_1_0 (fun _ b => b) x i u) : (⟨S8192x256, .f32⟩ : BufTy).Contents (Elt F) → (⟨S1, .i32⟩ : BufTy).Contents (Elt F) → (⟨S8192, .f32⟩ : BufTy).Contents (Elt F) → (⟨S8192x256, .f32⟩ : BufTy).Contents (Elt F)),
    nullary main_c_5 (constantI S_ 32 256#32),
    unary main_c_5 main_v4 (broadcastInDim S8 ![] bcast_S_S8 : (⟨S_, .i32⟩ : BufTy).Contents (Elt F) → (⟨S8, .i32⟩ : BufTy).Contents (Elt F)),
    binary main_c main_v4 main_v5 (addi : (⟨S8, .i32⟩ : BufTy).Contents (Elt F) → (⟨S8, .i32⟩ : BufTy).Contents (Elt F) → (⟨S8, .i32⟩ : BufTy).Contents (Elt F)),
    ternary main_c_0 main_v5 main_c main_v6 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v6 main_v7 (broadcastInDim S8x1 ![0] bcast_S8_S8x1_0 : (⟨S8, .i32⟩ : BufTy).Contents (Elt F) → (⟨S8x1, .i32⟩ : BufTy).Contents (Elt F)),
    binary main_v3 main_v7 main_v8 ((fun x i => Host.gather gather_S8192x256_S8x1_S8192x8_0_1_n_n_1_1_81921 x i) : (⟨S8192x256, .f32⟩ : BufTy).Contents (Elt F) → (⟨S8x1, .i32⟩ : BufTy).Contents (Elt F) → (⟨S8192x8, .f32⟩ : BufTy).Contents (Elt F)),
    unary main_arg2 main_v9 ((extractStridedSlice S64x8x1 ![0, 0, 0] · slices_S64x8x3_S64x8x1_0_0_0) : (⟨S64x8x3, .f32⟩ : BufTy).Contents (Elt F) → (⟨S64x8x1, .f32⟩ : BufTy).Contents (Elt F)),
    reshape main_v9 main_v10 rfl shapeCasts_S64x8x1_S64x8,
    binary main_v8 main_v10 main_v11 ((fun l r => Host.dotGeneral dot_S8192x8_S64x8_S8192x64_1_1_0_0_n_n none l r) : (⟨S8192x8, .f32⟩ : BufTy).Contents (Elt F) → (⟨S64x8, .f32⟩ : BufTy).Contents (Elt F) → (⟨S8192x64, .f32⟩ : BufTy).Contents (Elt F)),
    nullary main_cst_6 (constant S_ .f32 0x00000000#32),
    unary main_cst_6 main_v12 (broadcastInDim S8192x256 ![] bcast_S_S8192x256 : (⟨S_, .f32⟩ : BufTy).Contents (Elt F) → (⟨S8192x256, .f32⟩ : BufTy).Contents (Elt F)),
    nullary main_c_7 (constantI S_ 32 0#32),
    unary main_c_7 main_v13 (broadcastInDim S1 ![] bcast_S_S1 : (⟨S_, .i32⟩ : BufTy).Contents (Elt F) → (⟨S1, .i32⟩ : BufTy).Contents (Elt F)),
    nullary main_cst_8 (constant S_ .f32 0x3F800000#32),
    unary main_cst_8 main_v14 (broadcastInDim S8192 ![] bcast_S_S8192 : (⟨S_, .f32⟩ : BufTy).Contents (Elt F) → (⟨S8192, .f32⟩ : BufTy).Contents (Elt F)),
    ternary main_v12 main_v13 main_v14 main_v15 ((fun x i u => Host.scatter scatter_S8192x256_S1_S8192_0_1_1_0 (fun _ b => b) x i u) : (⟨S8192x256, .f32⟩ : BufTy).Contents (Elt F) → (⟨S1, .i32⟩ : BufTy).Contents (Elt F) → (⟨S8192, .f32⟩ : BufTy).Contents (Elt F) → (⟨S8192x256, .f32⟩ : BufTy).Contents (Elt F)),
    nullary main_c_9 (constantI S_ 32 256#32),
    unary main_c_9 main_v16 (broadcastInDim S8 ![] bcast_S_S8 : (⟨S_, .i32⟩ : BufTy).Contents (Elt F) → (⟨S8, .i32⟩ : BufTy).Contents (Elt F)),
    binary main_c_1 main_v16 main_v17 (addi : (⟨S8, .i32⟩ : BufTy).Contents (Elt F) → (⟨S8, .i32⟩ : BufTy).Contents (Elt F) → (⟨S8, .i32⟩ : BufTy).Contents (Elt F)),
    ternary main_c_2 main_v17 main_c_1 main_v18 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v18 main_v19 (broadcastInDim S8x1 ![0] bcast_S8_S8x1_0 : (⟨S8, .i32⟩ : BufTy).Contents (Elt F) → (⟨S8x1, .i32⟩ : BufTy).Contents (Elt F)),
    binary main_v15 main_v19 main_v20 ((fun x i => Host.gather gather_S8192x256_S8x1_S8192x8_0_1_n_n_1_1_81921 x i) : (⟨S8192x256, .f32⟩ : BufTy).Contents (Elt F) → (⟨S8x1, .i32⟩ : BufTy).Contents (Elt F) → (⟨S8192x8, .f32⟩ : BufTy).Contents (Elt F)),
    unary main_arg2 main_v21 ((extractStridedSlice S64x8x1 ![0, 0, 0] · slices_S64x8x3_S64x8x1_0_0_0) : (⟨S64x8x3, .f32⟩ : BufTy).Contents (Elt F) → (⟨S64x8x1, .f32⟩ : BufTy).Contents (Elt F)),
    reshape main_v21 main_v22 rfl shapeCasts_S64x8x1_S64x8,
    binary main_v20 main_v22 main_v23 ((fun l r => Host.dotGeneral dot_S8192x8_S64x8_S8192x64_1_1_0_0_n_n none l r) : (⟨S8192x8, .f32⟩ : BufTy).Contents (Elt F) → (⟨S64x8, .f32⟩ : BufTy).Contents (Elt F) → (⟨S8192x64, .f32⟩ : BufTy).Contents (Elt F)),
    TRef.binary (.of main_v11 : TRef sig ⟨S8192x64, .f32⟩) (.of main_v11 : TRef sig ⟨S8192x64, .f32⟩) (.of main_call0_v0 : TRef sig ⟨S8192x64, .f32⟩) mulf,
    TRef.nullary (.of main_call0_cst : TRef sig ⟨S_, .f32⟩) (constant S_ .f32 0x00000000#32),
    TRef.binary (.of main_call0_v0 : TRef sig ⟨S8192x64, .f32⟩) (.of main_call0_cst : TRef sig ⟨S_, .f32⟩) (.of main_call0_v1 : TRef sig ⟨S8192, .f32⟩) (fun x v => Host.reduceAdd x v reducesTo_S8192x64_S8192_d1 h_S_),
    TRef.unary (.of main_call0_v1 : TRef sig ⟨S8192, .f32⟩) (.of main_call0_v2 : TRef sig ⟨S8192x1, .f32⟩) (broadcastInDim S8192x1 ![0] bcast_S8192_S8192x1_0),
    TRef.unary (.of main_call0_v2 : TRef sig ⟨S8192x1, .f32⟩) (.of main_v24 : TRef sig ⟨S8192x1, .f32⟩) Host.sqrt,
    nullary main_cst_10 (constant S_ .f32 0x322BCC77#32),
    unary main_cst_10 main_v25 (broadcastInDim S8192x1 ![] bcast_S_S8192x1 : (⟨S_, .f32⟩ : BufTy).Contents (Elt F) → (⟨S8192x1, .f32⟩ : BufTy).Contents (Elt F)),
    binary main_v24 main_v25 main_v26 (addf : (⟨S8192x1, .f32⟩ : BufTy).Contents (Elt F) → (⟨S8192x1, .f32⟩ : BufTy).Contents (Elt F) → (⟨S8192x1, .f32⟩ : BufTy).Contents (Elt F)),
    unary main_v26 main_v27 (broadcastInDim S8192x64 ![0, 1] bcast_S8192x1_S8192x64_0_1 : (⟨S8192x1, .f32⟩ : BufTy).Contents (Elt F) → (⟨S8192x64, .f32⟩ : BufTy).Contents (Elt F)),
    binary main_v11 main_v27 main_v28 (Host.divf : (⟨S8192x64, .f32⟩ : BufTy).Contents (Elt F) → (⟨S8192x64, .f32⟩ : BufTy).Contents (Elt F) → (⟨S8192x64, .f32⟩ : BufTy).Contents (Elt F)),
    TRef.binary (.of main_v23 : TRef sig ⟨S8192x64, .f32⟩) (.of main_v23 : TRef sig ⟨S8192x64, .f32⟩) (.of main_call1_v0 : TRef sig ⟨S8192x64, .f32⟩) mulf,
    TRef.nullary (.of main_call1_cst : TRef sig ⟨S_, .f32⟩) (constant S_ .f32 0x00000000#32),
    TRef.binary (.of main_call1_v0 : TRef sig ⟨S8192x64, .f32⟩) (.of main_call1_cst : TRef sig ⟨S_, .f32⟩) (.of main_call1_v1 : TRef sig ⟨S8192, .f32⟩) (fun x v => Host.reduceAdd x v reducesTo_S8192x64_S8192_d1 h_S_),
    TRef.unary (.of main_call1_v1 : TRef sig ⟨S8192, .f32⟩) (.of main_call1_v2 : TRef sig ⟨S8192x1, .f32⟩) (broadcastInDim S8192x1 ![0] bcast_S8192_S8192x1_0),
    TRef.unary (.of main_call1_v2 : TRef sig ⟨S8192x1, .f32⟩) (.of main_v29 : TRef sig ⟨S8192x1, .f32⟩) Host.sqrt,
    nullary main_cst_11 (constant S_ .f32 0x322BCC77#32),
    unary main_cst_11 main_v30 (broadcastInDim S8192x1 ![] bcast_S_S8192x1 : (⟨S_, .f32⟩ : BufTy).Contents (Elt F) → (⟨S8192x1, .f32⟩ : BufTy).Contents (Elt F)),
    binary main_v29 main_v30 main_v31 (addf : (⟨S8192x1, .f32⟩ : BufTy).Contents (Elt F) → (⟨S8192x1, .f32⟩ : BufTy).Contents (Elt F) → (⟨S8192x1, .f32⟩ : BufTy).Contents (Elt F)),
    unary main_v31 main_v32 (broadcastInDim S8192x64 ![0, 1] bcast_S8192x1_S8192x64_0_1 : (⟨S8192x1, .f32⟩ : BufTy).Contents (Elt F) → (⟨S8192x64, .f32⟩ : BufTy).Contents (Elt F)),
    binary main_v23 main_v32 main_v33 (Host.divf : (⟨S8192x64, .f32⟩ : BufTy).Contents (Elt F) → (⟨S8192x64, .f32⟩ : BufTy).Contents (Elt F) → (⟨S8192x64, .f32⟩ : BufTy).Contents (Elt F)),
    unary main_v33 main_v34 ((transpose S64x8192 [1, 0] · transposes_S8192x64_S64x8192_1_0) : (⟨S8192x64, .f32⟩ : BufTy).Contents (Elt F) → (⟨S64x8192, .f32⟩ : BufTy).Contents (Elt F)),
    binary main_v28 main_v34 main_v35 ((fun l r => Host.dotGeneral dot_S8192x64_S64x8192_S8192x8192_1_0_0_1_n_n none l r) : (⟨S8192x64, .f32⟩ : BufTy).Contents (Elt F) → (⟨S64x8192, .f32⟩ : BufTy).Contents (Elt F) → (⟨S8192x8192, .f32⟩ : BufTy).Contents (Elt F)) ]

-- fifty-eight sequenced steps are reassociated one inside the other
set_option maxRecDepth 2048 in
/-- The program is that straight line: the called function's body unfolded at its two calls, and the sequencing
    reassociated. -/
theorem main_eq (c : Dev nD) : main (F := F) c = seq ops := by
  simp only [main, fn_norm.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation reads and writes buffers of the TensorCore's own tables only. -/
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., unary_bufs_sub ..,
    nullary_bufs_sub .., unary_bufs_sub .., nullary_bufs_sub .., unary_bufs_sub .., ternary_bufs_sub .., nullary_bufs_sub ..,
    unary_bufs_sub .., binary_bufs_sub .., ternary_bufs_sub .., unary_bufs_sub .., binary_bufs_sub .., unary_bufs_sub ..,
    reshape_bufs_sub .., binary_bufs_sub .., nullary_bufs_sub .., unary_bufs_sub .., nullary_bufs_sub .., unary_bufs_sub ..,
    nullary_bufs_sub .., unary_bufs_sub .., ternary_bufs_sub .., nullary_bufs_sub .., unary_bufs_sub .., binary_bufs_sub ..,
    ternary_bufs_sub .., unary_bufs_sub .., binary_bufs_sub .., unary_bufs_sub .., reshape_bufs_sub .., binary_bufs_sub ..,
    binary_bufs_sub .., nullary_bufs_sub .., binary_bufs_sub .., unary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., unary_bufs_sub .., binary_bufs_sub ..⟩

set_option maxHeartbeats 2000000 in
/-- What the result buffer holds after the line, from any contents `V` before it: both operands of the last product are
    the unit rows of the basis `V` holds (the two copies of the projection and normalization chain differ only in the
    buffers they pass through), the right one transposed. -/
theorem result_eq (V : Valuation τ sig (Elt F)) :
    after ops V (Proc.devRef .tc main_v35)
      = Host.dotGeneral (DotDims.plain 8192 64 8192) none (unitRows (V (Proc.devRef .tc main_arg2)))
          (transpose ⟨2, ![64, 8192]⟩ [1, 0] (unitRows (V (Proc.devRef .tc main_arg2))) (by decide)) := by
  after_results_simp
  rfl

set_option maxHeartbeats 2000000 in
theorem arg0_eq (V : Valuation τ sig (Elt F)) : after ops V (Proc.devRef .tc main_arg0) = V (Proc.devRef .tc main_arg0) := by
  after_results_simp
set_option maxHeartbeats 2000000 in
theorem arg1_eq (V : Valuation τ sig (Elt F)) : after ops V (Proc.devRef .tc main_arg1) = V (Proc.devRef .tc main_arg1) := by
  after_results_simp
set_option maxHeartbeats 2000000 in
theorem arg2_eq (V : Valuation τ sig (Elt F)) : after ops V (Proc.devRef .tc main_arg2) = V (Proc.devRef .tc main_arg2) := by
  after_results_simp

/-- From any memory with zero counters every weakly fair execution of the reference terminates; the result buffer ends at
    the host's product of the unit rows of the launched basis with their transpose, and the arguments end as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35)
          = Host.dotGeneral (DotDims.plain 8192 64 8192) none (unitRows (m ((c.tc : Thread nD τ).loc main_arg2)))
              (transpose ⟨2, ![64, 8192]⟩ [1, 0] (unitRows (m ((c.tc : Thread nD τ).loc main_arg2))) (by decide))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v35).trans (result_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.ReferenceIdeal.HostRun

end
-- ==== Proof.KernelEntry.lean ====
/-
  What the kernel's region finds in its two operand arrays.

  Before the one kernel launch the program runs the same host chain as the reference, twice: the projections of the
  samples and their row normalization (Proof/UnitRows.lean), a function of the projection basis alone. The left
  operand array is those unit rows changed to the 16-bit format; the right operand array is their transpose changed to
  the 16-bit format. No host operation writes the basis argument, so both are functions of the basis as launched.
-/
import proofs.«129488_j81003083202739_1_alg».proof.Proof.Gen.KernelIdeal.Frame
import proofs.«129488_j81003083202739_1_alg».proof.Proof.UnitRows
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo
open Cert.UnitRows (unitRows)

variable {F : FTy → Type} [FloatOps F]
variable (m : (ℓ : Loc nD τ sig) → Buf (Elt F) ℓ)

set_option maxHeartbeats 2000000 in
/-- The left operand's array at the region's entry: the unit rows of the launched basis, in the 16-bit format. -/
theorem lhs_array (c : Dev nD) :
    (V m c main_v34 : S8192x64.Idx → Elt F .bf16)
      = truncf .bf16 (unitRows (m ((c : Thread nD τ).loc main_arg2))) (by decide) := by
  dsimp only [V]
  simp only [hostOps0, hostOps0_1, hostOps0_2, hostOps0_3, hostOps0_4, List.flatten_cons, List.flatten_nil, List.append_nil,
    List.cons_append, List.nil_append]
  after_results_simp
  rfl

set_option maxHeartbeats 2000000 in
/-- The right operand's array at the region's entry: the transpose of those unit rows, in the 16-bit format. -/
theorem rhs_array (c : Dev nD) :
    (V m c main_v36 : S64x8192.Idx → Elt F .bf16)
      = truncf .bf16 (transpose ⟨2, ![64, 8192]⟩ [1, 0] (unitRows (m ((c : Thread nD τ).loc main_arg2))) (by decide)) (by decide) := by
  dsimp only [V]
  simp only [hostOps0, hostOps0_1, hostOps0_2, hostOps0_3, hostOps0_4, List.flatten_cons, List.flatten_nil, List.append_nil,
    List.cons_append, List.nil_append]
  after_results_simp
  rfl

end Cert.KernelIdeal.Entry

end
-- ==== Proof.KernelValue.lean ====
/-
  The kernel's result array after the run: the Gram matrix of the unit rows.

  The kernel tiles the 8192 × 8192 result into 8 × 4 blocks of 1024 rows by 2048 columns. At grid point `t` with block
  coordinates `(I, J)` it multiplies rows `1024·I …` of the left operand (1024 × 64) by columns `2048·J …` of the
  right operand (64 × 2048) into a zero block and stores the product. The left operand is the unit rows `q` and the
  right one their transpose (both only changed in format, which is the identity on the extended reals), so entry
  `(p, r)` of the block is `∑ c < 64, q (1024·I + p, c) · q (2048·J + r, c)`: block `(I, J)` of the Gram matrix of
  `q`'s rows. The 32 blocks tile the array — the point that covers entry `(a, b)` has `I = a / 1024`, `J = b / 2048` —
  so the array ends holding the Gram matrix whole.
-/
import proofs.«129488_j81003083202739_1_alg».proof.Proof.Gen.KernelIdeal.Value
import proofs.«129488_j81003083202739_1_alg».proof.Proof.KernelEntry
import proofs.«129488_j81003083202739_1_alg».proof.Proof.Gram

noncomputable section

open scoped BigOperators

namespace Cert.KernelIdeal.CosineValue

open Cert.KernelIdeal Cert.KernelIdeal.Gen Idealize.ShloMosaic Idealize.ShloMosaic.TcCoe Idealize.SL.Sem
open Idealize.ShloMosaic.Pipeline (Dat)
open Idealize.ShloMosaic.ValueIdx
open Cert.UnitRows (unitRows)
open Cert.CosineGram (gram gram_apply blockProduct_apply)

variable (m : (ℓ : Loc nD τ sig) → Buf (Elt Ideal) ℓ) (ρ : Dev nD → PrngReg)

/-- The unit rows of the basis core `c` was launched with. -/
abbrev rows (c : Dev nD) : FVec Ideal ⟨2, ![8192, 64]⟩ .f32 := unitRows (m ((c : Thread nD τ).loc main_arg2))

theorem zeroOffsets : (![0, 0] : Fin 2 → Nat) = fun _ => 0 := funext fun a => by fin_cases a <;> rfl

/-- The body's stored value at entry `(p, r)` of the block: the 64 products of row `p` of the loaded left block with
    column `r` of the loaded right block, summed (the two casts around the loads change nothing, and the accumulator is
    the zero block). -/
theorem stored_apply (x0 : Vec Ideal S1024x64 .bf16) (x1 : Vec Ideal S64x2048 .bf16) (p : Fin 1024) (r : Fin 2048) :
    k0_pay1 x0 x1 (ix2 p r) = ∑ c : Fin 64, x0 (ix2 p c) * x1 (ix2 c r) := by
  unfold k0_pay1
  simp only [shapeCast_self]
  exact blockProduct_apply x0 x1 p r

/-- How the three windows' blocks move with the grid point, decided over the 32 points: the left operand's block row is
    the result's block row and its block column is 0; the right operand's block row is 0 and its block column is the
    result's block column. -/
theorem blockIndices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2) :=
  (by decide +kernel : ∀ t : Fin grid0.N, _)

/-- Every block position of the 8 × 4 tiling is some grid point's. -/
theorem blockOnto : ∀ (I : Fin 8) (J : Fin 4), ∃ t : Fin cfg0.N, win0_2.index t = ![I.val, J.val] :=
  (by decide +kernel : ∀ (I : Fin 8) (J : Fin 4), ∃ t : Fin grid0.N, win0_2.index t = ![I.val, J.val])

/-- Entry `(p, k)` of the left operand's block at point `t` is entry `(a, k)` of the unit rows, `a` being row `p` of the
    result's block row. -/
theorem lhsBlock_apply (c : Dev nD) (t : Fin cfg0.N) (p : Fin 1024) (k : Fin 64) (a : Fin 8192)
    (ha : a.val = win0_2.index t (0 : Fin 2) * 1024 + p.val) :
    iblk m c 0 t (ix2 p k) = rows m c (ix2 a k) := by
  show V m c main_v34 (((cfg0.win 0).blk t).view.emb (ix2 p k)) = _
  refine (congrFun (Entry.lhs_array m c) _).trans ?_
  show rows m c (((cfg0.win 0).blk t).view.emb (ix2 p k)) = rows m c (ix2 a k)
  refine congrArg (rows m c) ?_
  obtain ⟨e0, e1, e2, e3⟩ := blockIndices t
  funext d; apply Fin.ext
  match d with
  | ⟨0, _⟩ => show win0_0.index t (0 : Fin 2) * 1024 + 1 * p.val = a.val; omega
  | ⟨1, _⟩ => show win0_0.index t (1 : Fin 2) * 64 + 1 * k.val = k.val; omega

/-- Entry `(k, r)` of the right operand's block at point `t` is entry `(b, k)` of the unit rows, `b` being column `r` of
    the result's block column: the right operand is the transpose. -/
theorem rhsBlock_apply (c : Dev nD) (t : Fin cfg0.N) (k : Fin 64) (r : Fin 2048) (b : Fin 8192)
    (hb : b.val = win0_2.index t (1 : Fin 2) * 2048 + r.val) :
    iblk m c 1 t (ix2 k r) = rows m c (ix2 b k) := by
  show V m c main_v36 (((cfg0.win 1).blk t).view.emb (ix2 k r)) = _
  refine (congrFun (Entry.rhs_array m c) _).trans ?_
  show transpose ⟨2, ![64, 8192]⟩ [1, 0] (rows m c) _ (((cfg0.win 1).blk t).view.emb (ix2 k r)) = rows m c (ix2 b k)
  refine Eq.trans (congrArg _ ?_) (transpose_ix2_apply (rows m c) _ k b)
  obtain ⟨e0, e1, e2, e3⟩ := blockIndices t
  funext d; apply Fin.ext
  match d with
  | ⟨0, _⟩ => show win0_1.index t (0 : Fin 2) * 64 + 1 * k.val = k.val; omega
  | ⟨1, _⟩ => show win0_1.index t (1 : Fin 2) * 2048 + 1 * r.val = b.val; omega

/-- What point `t` writes back is block `t` of the Gram matrix of the unit rows. -/
theorem flushed_eq (c : Dev nD) (t : Fin cfg0.N) :
    (dats m 0 c).flushed 2 t = ((cfg0.win 2).blk t).view.read (Elt Ideal) (gram (rows m c)) := by
  rw [Value.flushed2]
  unfold out0_2
  rw [View.canon_unit_zero zeroOffsets]
  simp only [View.ld_unit_zero (S := S1024x64) zeroOffsets, View.ld_unit_zero (S := S64x2048) zeroOffsets]
  funext j
  obtain ⟨p, r, rfl⟩ : ∃ (p : Fin 1024) (r : Fin 2048), j = ix2 p r := ⟨j 0, j 1, eq_ix2 j⟩
  show k0_pay1 (iblk m c 0 t) (iblk m c 1 t) (ix2 p r) = gram (rows m c) (((cfg0.win 2).blk t).view.emb (ix2 p r))
  refine (stored_apply (iblk m c 0 t) (iblk m c 1 t) p r).trans ?_
  have hp : p.val < 1024 := p.isLt
  have hr : r.val < 2048 := r.isLt
  have hI : win0_2.index t (0 : Fin 2) < 8 := (by decide +kernel : ∀ t : Fin grid0.N, win0_2.index t (0 : Fin 2) < 8) t
  have hJ : win0_2.index t (1 : Fin 2) < 4 := (by decide +kernel : ∀ t : Fin grid0.N, win0_2.index t (1 : Fin 2) < 4) t
  obtain ⟨a, ha⟩ : ∃ a : Fin 8192, a.val = win0_2.index t (0 : Fin 2) * 1024 + p.val := ⟨⟨_, by omega⟩, rfl⟩
  obtain ⟨b, hb⟩ : ∃ b : Fin 8192, b.val = win0_2.index t (1 : Fin 2) * 2048 + r.val := ⟨⟨_, by omega⟩, rfl⟩
  have e : ((cfg0.win 2).blk t).view.emb (ix2 p r) = ix2 a b := by
    funext d; apply Fin.ext
    match d with
    | ⟨0, _⟩ => show win0_2.index t (0 : Fin 2) * 1024 + 1 * p.val = a.val; omega
    | ⟨1, _⟩ => show win0_2.index t (1 : Fin 2) * 2048 + 1 * r.val = b.val; omega
  rw [e, gram_apply]
  exact Finset.sum_congr rfl fun k _ => by
    rw [lhsBlock_apply m c t p k a ha, rhsBlock_apply m c t k r b hb]

/-- An index of the array is in point `t`'s block iff each coordinate is in the block's range on its axis. -/
theorem mem_block (t : Fin cfg0.N) (i : S8192x8192.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v37).slice (win0_2.rect t)).set ↔ _
  rw [View.set_slice_whole, Rect.mem_set_unit]
  exact Iff.rfl

/-- The blocks tile the array: entry `(a, b)` lies in the block of the point with block row `a / 1024` and block column
    `b / 2048`. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := blockOnto ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- The result array after the run is the Gram matrix of the unit rows. -/
theorem final (c : Dev nD) : (dats m 0 c).arrAt 2 cfg0.N = gram (rows m c) :=
  (dats m 0 c).arrAt_eq_of_cover 2 (gram (rows m c)) (fun t _ => flushed_eq m c t) covered

/-- Every weakly fair execution of the kernel's program terminates with the result array at the Gram matrix of the unit
    rows of the launched basis, the arguments as launched. -/
theorem run : θ_run defs (onTc (τ := τ) (main (F := Ideal))) ⟨m, fun _ => 0, ρ⟩ fun r => ∀ c : Dev nD,
      r.2.mem ((c : Thread nD τ).loc main_v37) = gram (rows m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.CosineValue

end
-- ==== Proof.lean ====
/-
  The kernel computes the reference's cosine-similarity matrix: equivalence over the extended reals.

  Both programs first build, on the host and by the same operations, the matrix `q` of unit rows (8192 × 64): the 64
  projections of each sample's one-hot probabilities through the projection basis, each row divided by its norm plus a
  small constant (Proof/UnitRows.lean; `q` depends on the basis alone). The reference then takes the host's product
  of `q` with its transpose. The kernel changes `q` and its transpose to the 16-bit format — the identity on the
  extended reals — and multiplies them block by block on an 8 × 4 grid, each block of 1024 rows by 2048 columns into a
  zero accumulator. Entry `(a, b)` is on both sides the sum over the 64 columns of `q (a, c) · q (b, c)`, the Gram
  matrix of `q`'s rows (Proof/Gram.lean): the same finite sum term by term, so no finiteness of the inputs is needed
  and the precondition is never opened.

  The kernel's frames are the generated ones. The reference's run is read back in Proof/RefRun.lean and gives its
  frame with the result dropped; the kernel's result array is read off the generated blockwise run in
  Proof/KernelValue.lean over the region's operand arrays (Proof/KernelEntry.lean). The ideal pass rewrote nothing,
  so there is nothing to preserve.
-/
import proofs.«129488_j81003083202739_1_alg».proof.Defs
import proofs.«129488_j81003083202739_1_alg».proof.Proof.Gen.Kernel
import proofs.«129488_j81003083202739_1_alg».proof.Proof.Gen.Kernel.Skeleton
import proofs.«129488_j81003083202739_1_alg».proof.Proof.Gen.Kernel.Launch
import proofs.«129488_j81003083202739_1_alg».proof.Proof.Gen.Kernel.Points
import proofs.«129488_j81003083202739_1_alg».proof.Proof.Gen.Kernel.Frame
import proofs.«129488_j81003083202739_1_alg».proof.Proof.Gen.KernelIdeal
import proofs.«129488_j81003083202739_1_alg».proof.Proof.Gen.KernelIdeal.Skeleton
import proofs.«129488_j81003083202739_1_alg».proof.Proof.Gen.KernelIdeal.Launch
import proofs.«129488_j81003083202739_1_alg».proof.Proof.Gen.KernelIdeal.Points
import proofs.«129488_j81003083202739_1_alg».proof.Proof.Gen.KernelIdeal.Frame
import proofs.«129488_j81003083202739_1_alg».proof.Proof.Gen.KernelIdeal.Value
import proofs.«129488_j81003083202739_1_alg».proof.Proof.Gen.ReferenceIdeal
import proofs.«129488_j81003083202739_1_alg».proof.Proof.Gen.Pre_finite_inputs
import proofs.«129488_j81003083202739_1_alg».proof.Proof.Gram
import proofs.«129488_j81003083202739_1_alg».proof.Proof.RefRun
import proofs.«129488_j81003083202739_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- The ideal pass rewrote no operation. -/
theorem preserves : Cert.preserves_Kernel_KernelIdeal := trivial

/-- Both result arrays are the Gram matrix of the unit rows of the (agreeing) bases: the kernel's by its blockwise run,
    the reference's because the host's product of a matrix with its transpose is that Gram matrix. -/
theorem algebraic : Cert.algebraic_KernelIdeal_ReferenceIdeal := by
  intro m ρ m' ρ' _ hagree
  refine ⟨_, Cert.KernelIdeal.CosineValue.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).2.2]
  exact Cert.CosineGram.hostDot_transpose_eq_gram _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
